-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S64x64 .f32) (main_arg2 : FVec F S64x64 .f32) (main_arg3 : FVec F S64 .f32) (main_arg4 : FVec F S64 .f32) (main_arg5 : FVec F S64 .f32) (main_arg6 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 42
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S64x64, .f32⟩
  | .hbm, ⟨37, _⟩ => ⟨S64x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S64x64, .f32⟩
  | .hbm, ⟨37, _⟩ => ⟨S50000x64, .f32⟩
  | .hbm, ⟨38, _⟩ => ⟨S64x64, .f32⟩
  | .hbm, ⟨39, _⟩ => ⟨S50000x64, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S50000, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x64, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S50000, .f32⟩
  | .hbm, ⟨55, _⟩ => ⟨S50000x1, .f32⟩
  | .hbm, ⟨56, _⟩ => ⟨S_, .f32⟩
  | .hbm, ⟨57, _⟩ => ⟨S50000x1, .f32⟩
  | .hbm, ⟨58, _⟩ => ⟨S50000x1, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x1, .f32⟩
  | .hbm, ⟨65, _⟩ => ⟨S50000x64, .f32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000x64, .f32⟩
  | .hbm, ⟨75, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call0_cst : Ref sig .tc := ⟨.hbm, 73, rfl⟩
abbrev main_call0_v0 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.RowSpec.lean ====
/-
  One output row of the layer, as a function of one row of each operand.

  With a and x the 64 entries of a node's aggregated row and of its own row, wl and wr the two weight matrices
  laid out contraction-index first, and b the bias, the linear part is
      h j = (sum over k of a k * wl k j) + (sum over k of x k * wr k j) + b j.
  The row is then normalised: its mean is the sum of h divided by 64, each entry is centred on the mean, the
  variance is the sum of the squared centred entries divided by 64, and the centred entry is multiplied by the
  inverse square root of the variance plus a fixed small number, then by a per-column weight; a per-column shift
  is added and the result is cut off below at zero.

  The three numbers 64, the small number and zero are kept as the single-precision words both programs
  write; the same word denotes the same extended real on both sides and is never evaluated here.
-/
import Idealize.ShloMosaic.PureOps.Ideal
import Idealize.ShloMosaic.Lib.ValueIdx

noncomputable section

namespace Cert.SageRow

open Idealize.ShloMosaic

/-- The divisor 64, as its single-precision word. -/
abbrev w64 : EReal := Ideal.ofBits .f32 0x42800000#32
/-- The small number added to the variance, as its single-precision word. -/
abbrev wEps : EReal := Ideal.ofBits .f32 0x3727C5AC#32
/-- Zero, as its single-precision word. -/
abbrev w0 : EReal := Ideal.ofBits .f32 0x00000000#32

/-- The linear part of a row: two products against the weights, then the bias. -/
def lin (a x : Fin 64 → EReal) (wl wr : Fin 64 → Fin 64 → EReal) (b : Fin 64 → EReal) (j : Fin 64) : EReal :=
  (∑ k : Fin 64, a k * wl k j) + (∑ k : Fin 64, x k * wr k j) + b j

/-- The mean of a row. -/
def mean (h : Fin 64 → EReal) : EReal := Ideal.div (∑ k : Fin 64, h k) w64

/-- A row's entry centred on the row's mean. -/
def cen (h : Fin 64 → EReal) (j : Fin 64) : EReal := h j - mean h

/-- The variance of a row: the mean of the squared centred entries. -/
def var (h : Fin 64 → EReal) : EReal := Ideal.div (∑ k : Fin 64, cen h k * cen h k) w64

/-- The centred entry times the inverse square root of the variance plus the small number, times the column's weight. -/
def scaled (h lw : Fin 64 → EReal) (j : Fin 64) : EReal := cen h j * Ideal.rsqrt (var h + wEps) * lw j

/-- The finished entry: the column's shift added, cut off below at zero. -/
def out (h lw lb : Fin 64 → EReal) (j : Fin 64) : EReal := max (scaled h lw j + lb j) w0

/-- The layer's result at row r and column q, from the 50000-row aggregated array, the node features and the
    parameters as the programs receive them: the weights are stored output column first, so entry (q, k) of a
    weight multiplies entry k of the row; the bias, the weight row and the shift are plain length-64 vectors. -/
def layer (agg x : (⟨2, ![50000, 64]⟩ : Shape).Idx → EReal) (wl wr : (⟨2, ![64, 64]⟩ : Shape).Idx → EReal)
    (b lw lb : (⟨1, ![64]⟩ : Shape).Idx → EReal) (r : Fin 50000) (q : Fin 64) : EReal :=
  out (lin (fun k => agg (ValueIdx.ix2 r k)) (fun k => x (ValueIdx.ix2 r k)) (fun k j => wl (ValueIdx.ix2 j k)) (fun k j => wr (ValueIdx.ix2 j k))
      (fun j => b (ValueIdx.ix1 j)))
    (fun j => lw (ValueIdx.ix1 j)) (fun j => lb (ValueIdx.ix1 j)) q

/-- The layer's result as a 50000-by-64 array. -/
def layerArr (agg x : (⟨2, ![50000, 64]⟩ : Shape).Idx → EReal) (wl wr : (⟨2, ![64, 64]⟩ : Shape).Idx → EReal)
    (b lw lb : (⟨1, ![64]⟩ : Shape).Idx → EReal) : (⟨2, ![50000, 64]⟩ : Shape).Idx → EReal :=
  fun i => layer agg x wl wr b lw lb ⟨(i 0).val, (i 0).isLt⟩ ⟨(i 1).val, (i 1).isLt⟩

/-- The array at the index built from coordinates r and q is the layer's result there. -/
theorem layerArr_ix2 (agg x : (⟨2, ![50000, 64]⟩ : Shape).Idx → EReal) (wl wr : (⟨2, ![64, 64]⟩ : Shape).Idx → EReal)
    (b lw lb : (⟨1, ![64]⟩ : Shape).Idx → EReal) (r : Fin 50000) (q : Fin 64) :
    layerArr agg x wl wr b lw lb (ValueIdx.ix2 r q) = layer agg x wl wr b lw lb r q := rfl

end Cert.SageRow

end
-- ==== Proof.LibColumn.lean ====
/-
  A column kept as a trailing unit axis, and a sum along the last axis, read at coordinates.

  Reducing a matrix along its last axis and keeping that axis as one of extent one is, in a vector program, three
  steps: the sum along the last axis, a cast of the length-a result to an a-by-1 column, and later a broadcast of
  the column back across b columns. Read at coordinates, the sum at row i is the sum over k of the entry (i, k);
  the cast column at (i, u) is the vector's entry i; and the broadcast at (i, c) is the column's entry (i, 0).
-/
import Idealize.ShloMosaic.PureOps.Ideal
import Idealize.ShloMosaic.PureOps.Ideal.Laws
import Idealize.ShloMosaic.Lib.ValueIdx
import Idealize.ShloMosaic.Lib.Pipeline.Value

noncomputable section

namespace Cert.LibColumn

open Idealize.ShloMosaic Idealize.ShloMosaic.ValueIdx

variable {α : Type}

/-- A length-a vector cast to an a-by-1 column reads, at (i, u), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast across b columns reads, at (i, c), the column's entry (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The exact sum along the last axis of an a-by-b matrix reads, at row i, the sum over k of the entry (i, k). -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  refine Finset.sum_congr rfl fun k _ => congrArg src (funext fun d => Fin.ext ?_)
  rw [h.lift_val]
  match d with
  | ⟨0, _⟩ => simp [Shape.Reduces.liftVal]
  | ⟨1, _⟩ => simp [Shape.Reduces.liftVal]

/-- The same for a single-precision sum whose starting word is written out as the zero word: the form a printed body has. -/
theorem laneSum_f32_apply {a b : ℕ} (src : FVec Ideal ⟨2, ![a, b]⟩ .f32)
    (h : (⟨2, ![a, b]⟩ : Shape).Reduces [1] ⟨1, ![a]⟩) (hacc : (0x00000000#32 : BitVec 32) = 0x00000000#32) (i : Fin a) :
    multiReduction .add [1] ⟨1, ![a]⟩ src 0x00000000#32 h (.inl rfl) hacc (ix1 i) = ∑ k : Fin b, src (ix2 i k) :=
  laneSum_apply src 0x00000000#32 h (.inl rfl) hacc i

end Cert.LibColumn

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.KernelRow.lean ====
/-
  The kernel body's value at one entry of a 5000-row block.

  The body loads a 5000-by-64 block of the aggregated features and of the node features, the two 64-by-64
  weights (contraction index first) and three 1-by-64 rows. Its arithmetic is named here in stages: the linear
  part (two products into a zero accumulator, summed, plus the bias row), the column of row means, the centred
  block, the column of row variances, and the scaled block. Read at row p and column q, each stage depends only
  on row p of the two feature blocks, and is the corresponding stage of the row specification.
  A change of float format is the identity on the extended reals, so the narrowing of the products' operands
  does not show in the values.
-/
import proofs.«168790_j67233418051656_1_alg».proof.Proof.Gen.KernelIdeal.Skeleton
import proofs.«168790_j67233418051656_1_alg».proof.Proof.RowSpec
import proofs.«168790_j67233418051656_1_alg».proof.Proof.LibColumn
import proofs.«168790_j67233418051656_1_alg».proof.Proof.LibDense
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx Cert.SageRow

/-- The linear part of the block: aggregated block times the first weight, plus node block times the second, plus the bias row on every row. -/
def hvec (v0 v3 : Vec Ideal S5000x64 .f32) (v5 v8 : Vec Ideal S64x64 .f32) (v14 : Vec Ideal S1x64 .f32) : FVec Ideal S5000x64 .f32 :=
  addf (addf
      (matmul dot_S5000x64_S64x64_S5000x64_1_0_0_1_n_n none (truncf .bf16 (shapeCast S5000x64 v0 shapeCasts_S5000x64_S5000x64) bitsLt_bf16_f32)
        (truncf .bf16 (shapeCast S64x64 v5 shapeCasts_S64x64_S64x64) bitsLt_bf16_f32) (constant S5000x64 .f32 0x00000000#32))
      (matmul dot_S5000x64_S64x64_S5000x64_1_0_0_1_n_n none (truncf .bf16 v3 bitsLt_bf16_f32)
        (truncf .bf16 (shapeCast S64x64 v8 shapeCasts_S64x64_S64x64) bitsLt_bf16_f32) (constant S5000x64 .f32 0x00000000#32)))
    (broadcastTo S5000x64 (shapeCast S1x64 v14 shapeCasts_S1x64_S1x64) broadcasts_S1x64_S5000x64)

/-- The column of row means of a block. -/
def meanCol (h : FVec Ideal S5000x64 .f32) : FVec Ideal S5000x1 .f32 :=
  divf (shapeCast S5000x1 (multiReduction .add [1] S5000 h 0x00000000#32 reduces_S5000x64_S5000 (.inl rfl) rfl) shapeCasts_S5000_S5000x1)
    (broadcast S5000x1 (Scalar.ofBits .f32 0x42800000#32))

/-- The block with each row centred on its mean. -/
def cenVec (h : FVec Ideal S5000x64 .f32) : FVec Ideal S5000x64 .f32 :=
  subf h (broadcastTo S5000x64 (meanCol h) broadcasts_S5000x1_S5000x64)

/-- The column of row variances of a block. -/
def varCol (h : FVec Ideal S5000x64 .f32) : FVec Ideal S5000x1 .f32 :=
  divf (shapeCast S5000x1 (multiReduction .add [1] S5000 (mulf (cenVec h) (cenVec h)) 0x00000000#32 reduces_S5000x64_S5000 (.inl rfl) rfl) shapeCasts_S5000_S5000x1)
    (broadcast S5000x1 (Scalar.ofBits .f32 0x42800000#32))

/-- The centred block times the inverse square root of variance plus the small number, times the weight row. -/
def scaledVec (h : FVec Ideal S5000x64 .f32) (v34 : Vec Ideal S1x64 .f32) : FVec Ideal S5000x64 .f32 :=
  mulf (mulf (cenVec h)
      (broadcastTo S5000x64 (rsqrt (addf (varCol h) (broadcast S5000x1 (Scalar.ofBits .f32 0x3727C5AC#32)))) broadcasts_S5000x1_S5000x64))
    (broadcastTo S5000x64 (shapeCast S1x64 v34 shapeCasts_S1x64_S1x64) broadcasts_S1x64_S5000x64)

/-- The body's arithmetic is the scaled block of the linear part. -/
theorem pay2_eq (v0 v3 : Vec Ideal S5000x64 .f32) (v5 v8 : Vec Ideal S64x64 .f32) (v14 v34 : Vec Ideal S1x64 .f32) :
    k0_pay2 (F := Ideal) v0 v3 v5 v8 v14 v34 = scaledVec (hvec v0 v3 v5 v8 v14) v34 := rfl

/-- The linear part at (p, q): row p of each feature block against column q of each weight, plus the bias at q. -/
theorem hvec_apply (v0 v3 : Vec Ideal S5000x64 .f32) (v5 v8 : Vec Ideal S64x64 .f32) (v14 : Vec Ideal S1x64 .f32) (p : Fin 5000) (q : Fin 64) :
    hvec v0 v3 v5 v8 v14 (ix2 p q)
      = lin (fun k => v0 (ix2 p k)) (fun k => v3 (ix2 p k)) (fun k j => v5 (ix2 k j)) (fun k j => v8 (ix2 k j)) (fun j => v14 (ix2 (0 : Fin 1) j)) q := by
  unfold hvec lin
  rw [addf_apply, addf_apply]
  simp only [matmul]
  rw [Cert.LibDense.matmul_zero_apply _ none rfl rfl rfl rfl rfl rfl, Cert.LibDense.matmul_zero_apply _ none rfl rfl rfl rfl rfl rfl,
    broadcastTo_1b_ab_apply, shapeCast_self]
  simp only [truncf_apply, shapeCast_self]

/-- The mean column at row p is the mean of row p. -/
theorem meanCol_apply (h : FVec Ideal S5000x64 .f32) (p : Fin 5000) (u : Fin 1) :
    meanCol h (ix2 p u) = mean (fun j => h (ix2 p j)) := by
  unfold meanCol mean
  rw [divf_apply, Cert.LibColumn.shapeCast_a_a1_apply]
  exact congrArg (fun s => Ideal.div s w64) (Cert.LibColumn.laneSum_f32_apply h reduces_S5000x64_S5000 rfl p)

/-- The centred block at (p, q) is row p's entry q centred on row p's mean. -/
theorem cenVec_apply (h : FVec Ideal S5000x64 .f32) (p : Fin 5000) (q : Fin 64) :
    cenVec h (ix2 p q) = cen (fun j => h (ix2 p j)) q := by
  unfold cenVec cen
  rw [subf_apply, Cert.LibColumn.broadcastTo_a1_ab_apply, meanCol_apply]

/-- The variance column at row p is the variance of row p. -/
theorem varCol_apply (h : FVec Ideal S5000x64 .f32) (p : Fin 5000) (u : Fin 1) :
    varCol h (ix2 p u) = var (fun j => h (ix2 p j)) := by
  unfold varCol var
  rw [divf_apply, Cert.LibColumn.shapeCast_a_a1_apply]
  refine (congrArg (fun s => Ideal.div s w64)
    (Cert.LibColumn.laneSum_f32_apply (mulf (cenVec h) (cenVec h)) reduces_S5000x64_S5000 rfl p)).trans ?_
  simp only [mulf_apply, cenVec_apply]

/-- The scaled block at (p, q) is the scaled entry q of row p, with the weight row's entry q. -/
theorem scaledVec_apply (h : FVec Ideal S5000x64 .f32) (v34 : Vec Ideal S1x64 .f32) (p : Fin 5000) (q : Fin 64) :
    scaledVec h v34 (ix2 p q) = scaled (fun j => h (ix2 p j)) (fun j => v34 (ix2 (0 : Fin 1) j)) q := by
  unfold scaledVec scaled
  rw [mulf_apply, mulf_apply, cenVec_apply, Cert.LibColumn.broadcastTo_a1_ab_apply, broadcastTo_1b_ab_apply, shapeCast_self]
  show _ * Ideal.rsqrt ((varCol h (ix2 p (0 : Fin 1))) + Ideal.ofBits .f32 0x3727C5AC#32) * _ = _
  rw [varCol_apply]

/-- The body's arithmetic at (p, q), as the row specification of row p of the loaded blocks. -/
theorem pay2_apply (v0 v3 : Vec Ideal S5000x64 .f32) (v5 v8 : Vec Ideal S64x64 .f32) (v14 v34 : Vec Ideal S1x64 .f32) (p : Fin 5000) (q : Fin 64) :
    k0_pay2 (F := Ideal) v0 v3 v5 v8 v14 v34 (ix2 p q)
      = scaled (lin (fun k => v0 (ix2 p k)) (fun k => v3 (ix2 p k)) (fun k j => v5 (ix2 k j)) (fun k j => v8 (ix2 k j)) (fun j => v14 (ix2 (0 : Fin 1) j)))
          (fun j => v34 (ix2 (0 : Fin 1) j)) q := by
  rw [pay2_eq, scaledVec_apply]
  simp only [hvec_apply]

end Cert.KernelIdeal.Row

end
-- ==== Proof.KernelArray.lean ====
/-
  From the kernel's blocks to its whole output array.

  The grid has ten points; point t works on rows 5000 t to 5000 t + 4999. The two feature windows and the output
  window move with the point (block index t along the rows, 0 along the columns); the two weights and the three
  rows are whole-array windows whose block index is always 0. So row p of a feature block at point t is row
  5000 t + p of its array, and what point t writes back is that block of one whole-array function: at (r, q), the
  row specification of row r of the aggregated array and of the node features as the region finds them, with the
  weights and rows the region finds. The ten blocks cover the 50000 rows, so the array ends equal to that function.
-/
import proofs.«168790_j67233418051656_1_alg».proof.Proof.Gen.KernelIdeal.Value
import proofs.«168790_j67233418051656_1_alg».proof.Proof.KernelRow
import Idealize.ShloMosaic.Lib.Pipeline.Value

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx Cert.SageRow
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid point, decided over the ten points: the point's number along the
    rows for the two feature windows and the output, zero everywhere else. -/
theorem idx_facts : ∀ t : Fin cfg0.N, t.val < 10
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Every block row index from 0 to 9 is some point's. -/
theorem idx_onto : ∀ q0 : Fin 10, ∃ t : Fin cfg0.N, win0_7.index t = ![q0.val, 0] :=
  (by decide +kernel : ∀ q0 : Fin 10, ∃ t : Fin grid0.N, win0_7.index t = ![q0.val, 0])

/-- The array row that row p of the block at point t is. -/
def rowOf (t : Fin cfg0.N) (p : Fin 5000) : Fin 50000 :=
  ⟨t.val * 5000 + p.val, by have := (idx_facts t).1; have := p.isLt; omega⟩

/-! ## Each window's block at a point, read at coordinates -/

/-- Window 0's block at point t, read from any array of its shape at coordinates. -/
theorem read0 (t : Fin cfg0.N) (A : S50000x64.Idx → EReal) (p : Fin 5000) (k : Fin 64) :
    ((cfg0.win 0).blk t).view.read (Elt Ideal) A (ix2 p k) = A (ix2 (rowOf t p) k) := by
  have h : ((cfg0.win 0).blk t).view.emb (ix2 p k) = ix2 (rowOf t p) k := by
    funext a; apply Fin.ext
    obtain ⟨_, e0, e1, _⟩ := idx_facts t
    match a with
    | ⟨0, _⟩ => show win0_0.index t (0 : Fin 2) * 5000 + 1 * p.val = t.val * 5000 + p.val; omega
    | ⟨1, _⟩ => show win0_0.index t (1 : Fin 2) * 64 + 1 * k.val = k.val; omega
  show A (((cfg0.win 0).blk t).view.emb (ix2 p k)) = _
  rw [h]

theorem blk0 (c : Dev nD) (t : Fin cfg0.N) (p : Fin 5000) (k : Fin 64) :
    iblk m c 0 t (ix2 p k) = V m c main_v22 (ix2 (rowOf t p) k) :=
  read0 t (V m c main_v22) p k

/-- Window 1's block at point t, read from any array of its shape at coordinates. -/
theorem read1 (t : Fin cfg0.N) (A : S50000x64.Idx → EReal) (p : Fin 5000) (k : Fin 64) :
    ((cfg0.win 1).blk t).view.read (Elt Ideal) A (ix2 p k) = A (ix2 (rowOf t p) k) := by
  have h : ((cfg0.win 1).blk t).view.emb (ix2 p k) = ix2 (rowOf t p) k := by
    funext a; apply Fin.ext
    obtain ⟨_, _, _, e0, e1, _⟩ := idx_facts t
    match a with
    | ⟨0, _⟩ => show win0_1.index t (0 : Fin 2) * 5000 + 1 * p.val = t.val * 5000 + p.val; omega
    | ⟨1, _⟩ => show win0_1.index t (1 : Fin 2) * 64 + 1 * k.val = k.val; omega
  show A (((cfg0.win 1).blk t).view.emb (ix2 p k)) = _
  rw [h]

theorem blk1 (c : Dev nD) (t : Fin cfg0.N) (p : Fin 5000) (k : Fin 64) :
    iblk m c 1 t (ix2 p k) = V m c main_arg0 (ix2 (rowOf t p) k) :=
  read1 t (V m c main_arg0) p k

/-- Window 2's block at point t, read from any array of its shape at coordinates. -/
theorem read2 (t : Fin cfg0.N) (A : S64x64.Idx → EReal) (k : Fin 64) (j : Fin 64) :
    ((cfg0.win 2).blk t).view.read (Elt Ideal) A (ix2 k j) = A (ix2 k j) := by
  have h : ((cfg0.win 2).blk t).view.emb (ix2 k j) = ix2 k j := by
    funext a; apply Fin.ext
    obtain ⟨_, _, _, _, _, e0, e1, _⟩ := idx_facts t
    match a with
    | ⟨0, _⟩ => show win0_2.index t (0 : Fin 2) * 64 + 1 * k.val = k.val; omega
    | ⟨1, _⟩ => show win0_2.index t (1 : Fin 2) * 64 + 1 * j.val = j.val; omega
  show A (((cfg0.win 2).blk t).view.emb (ix2 k j)) = _
  rw [h]

theorem blk2 (c : Dev nD) (t : Fin cfg0.N) (k : Fin 64) (j : Fin 64) :
    iblk m c 2 t (ix2 k j) = V m c main_v23 (ix2 k j) :=
  read2 t (V m c main_v23) k j

/-- Window 3's block at point t, read from any array of its shape at coordinates. -/
theorem read3 (t : Fin cfg0.N) (A : S64x64.Idx → EReal) (k : Fin 64) (j : Fin 64) :
    ((cfg0.win 3).blk t).view.read (Elt Ideal) A (ix2 k j) = A (ix2 k j) := by
  have h : ((cfg0.win 3).blk t).view.emb (ix2 k j) = ix2 k j := by
    funext a; apply Fin.ext
    obtain ⟨_, _, _, _, _, _, _, e0, e1, _⟩ := idx_facts t
    match a with
    | ⟨0, _⟩ => show win0_3.index t (0 : Fin 2) * 64 + 1 * k.val = k.val; omega
    | ⟨1, _⟩ => show win0_3.index t (1 : Fin 2) * 64 + 1 * j.val = j.val; omega
  show A (((cfg0.win 3).blk t).view.emb (ix2 k j)) = _
  rw [h]

theorem blk3 (c : Dev nD) (t : Fin cfg0.N) (k : Fin 64) (j : Fin 64) :
    iblk m c 3 t (ix2 k j) = V m c main_v24 (ix2 k j) :=
  read3 t (V m c main_v24) k j

/-- Window 4's block at point t, read from any array of its shape at coordinates. -/
theorem read4 (t : Fin cfg0.N) (A : S1x64.Idx → EReal) (u : Fin 1) (j : Fin 64) :
    ((cfg0.win 4).blk t).view.read (Elt Ideal) A (ix2 u j) = A (ix2 u j) := by
  have h : ((cfg0.win 4).blk t).view.emb (ix2 u j) = ix2 u j := by
    funext a; apply Fin.ext
    obtain ⟨_, _, _, _, _, _, _, _, _, e0, e1, _⟩ := idx_facts t
    match a with
    | ⟨0, _⟩ => show win0_4.index t (0 : Fin 2) * 1 + 1 * u.val = u.val; omega
    | ⟨1, _⟩ => show win0_4.index t (1 : Fin 2) * 64 + 1 * j.val = j.val; omega
  show A (((cfg0.win 4).blk t).view.emb (ix2 u j)) = _
  rw [h]

theorem blk4 (c : Dev nD) (t : Fin cfg0.N) (u : Fin 1) (j : Fin 64) :
    iblk m c 4 t (ix2 u j) = V m c main_v25 (ix2 u j) :=
  read4 t (V m c main_v25) u j

/-- Window 5's block at point t, read from any array of its shape at coordinates. -/
theorem read5 (t : Fin cfg0.N) (A : S1x64.Idx → EReal) (u : Fin 1) (j : Fin 64) :
    ((cfg0.win 5).blk t).view.read (Elt Ideal) A (ix2 u j) = A (ix2 u j) := by
  have h : ((cfg0.win 5).blk t).view.emb (ix2 u j) = ix2 u j := by
    funext a; apply Fin.ext
    obtain ⟨_, _, _, _, _, _, _, _, _, _, _, e0, e1, _⟩ := idx_facts t
    match a with
    | ⟨0, _⟩ => show win0_5.index t (0 : Fin 2) * 1 + 1 * u.val = u.val; omega
    | ⟨1, _⟩ => show win0_5.index t (1 : Fin 2) * 64 + 1 * j.val = j.val; omega
  show A (((cfg0.win 5).blk t).view.emb (ix2 u j)) = _
  rw [h]

theorem blk5 (c : Dev nD) (t : Fin cfg0.N) (u : Fin 1) (j : Fin 64) :
    iblk m c 5 t (ix2 u j) = V m c main_v26 (ix2 u j) :=
  read5 t (V m c main_v26) u j

/-- Window 6's block at point t, read from any array of its shape at coordinates. -/
theorem read6 (t : Fin cfg0.N) (A : S1x64.Idx → EReal) (u : Fin 1) (j : Fin 64) :
    ((cfg0.win 6).blk t).view.read (Elt Ideal) A (ix2 u j) = A (ix2 u j) := by
  have h : ((cfg0.win 6).blk t).view.emb (ix2 u j) = ix2 u j := by
    funext a; apply Fin.ext
    obtain ⟨_, _, _, _, _, _, _, _, _, _, _, _, _, e0, e1, _⟩ := idx_facts t
    match a with
    | ⟨0, _⟩ => show win0_6.index t (0 : Fin 2) * 1 + 1 * u.val = u.val; omega
    | ⟨1, _⟩ => show win0_6.index t (1 : Fin 2) * 64 + 1 * j.val = j.val; omega
  show A (((cfg0.win 6).blk t).view.emb (ix2 u j)) = _
  rw [h]

theorem blk6 (c : Dev nD) (t : Fin cfg0.N) (u : Fin 1) (j : Fin 64) :
    iblk m c 6 t (ix2 u j) = V m c main_v27 (ix2 u j) :=
  read6 t (V m c main_v27) u j

/-- The output window's block at point t, read from any array of its shape at coordinates. -/
theorem read7 (t : Fin cfg0.N) (A : S50000x64.Idx → EReal) (p : Fin 5000) (q : Fin 64) :
    ((cfg0.win 7).blk t).view.read (Elt Ideal) A (ix2 p q) = A (ix2 (rowOf t p) q) := by
  have h : ((cfg0.win 7).blk t).view.emb (ix2 p q) = ix2 (rowOf t p) q := by
    funext a; apply Fin.ext
    obtain ⟨_, _, _, _, _, _, _, _, _, _, _, _, _, _, _, e0, e1⟩ := idx_facts t
    match a with
    | ⟨0, _⟩ => show win0_7.index t (0 : Fin 2) * 5000 + 1 * p.val = t.val * 5000 + p.val; omega
    | ⟨1, _⟩ => show win0_7.index t (1 : Fin 2) * 64 + 1 * q.val = q.val; omega
  show A (((cfg0.win 7).blk t).view.emb (ix2 p q)) = _
  rw [h]

/-! ## The block the body leaves, at coordinates -/

/-- The block the body leaves at (p, q): the finished entry q of row p of the loaded blocks. -/
theorem block_apply (P0 P1 : Vec Ideal S5000x64 .f32) (P2 P3 : Vec Ideal S64x64 .f32) (P4 P5 P6 : Vec Ideal S1x64 .f32)
    (p : Fin 5000) (q : Fin 64) :
    Value.E7 (F := Ideal) P0 P1 P2 P3 P4 P5 P6 (ix2 p q)
      = out (lin (fun k => P0 (ix2 p k)) (fun k => P1 (ix2 p k)) (fun k j => P2 (ix2 k j)) (fun k j => P3 (ix2 k j)) (fun j => P4 (ix2 (0 : Fin 1) j)))
          (fun j => P5 (ix2 (0 : Fin 1) j)) (fun j => P6 (ix2 (0 : Fin 1) j)) q := by
  have e0 : Value.ix7_0 (ix2 p q) = ix2 p q := funext fun a => Fin.ext (by match a with | ⟨0, _⟩ => rfl | ⟨1, _⟩ => rfl)
  have e1 : Value.ix7_1 (ix2 p q) = ix2 (0 : Fin 1) q := funext fun a => Fin.ext (by match a with | ⟨0, _⟩ => rfl | ⟨1, _⟩ => rfl)
  show max (k0_pay2 (F := Ideal) P0 P1 P2 P3 P4 P5 (Value.ix7_0 (ix2 p q)) + P6 (Value.ix7_1 (ix2 p q))) (Ideal.ofBits .f32 0x00000000#32) = _
  rw [e0, e1, Cert.KernelIdeal.Row.pay2_apply]
  unfold out
  rfl

/-! ## The whole array -/

/-- The output array as one function of the arrays the region finds: at (r, q) the finished entry q of row r. -/
def Gk (agg x : S50000x64.Idx → EReal) (wlt wrt : S64x64.Idx → EReal) (b2 lw2 lb2 : S1x64.Idx → EReal) : S50000x64.Idx → EReal :=
  fun i => out (lin (fun k => agg (ix2 (⟨(i 0).val, (i 0).isLt⟩ : Fin 50000) k)) (fun k => x (ix2 (⟨(i 0).val, (i 0).isLt⟩ : Fin 50000) k))
      (fun k j => wlt (ix2 k j)) (fun k j => wrt (ix2 k j)) (fun j => b2 (ix2 (0 : Fin 1) j)))
    (fun j => lw2 (ix2 (0 : Fin 1) j)) (fun j => lb2 (ix2 (0 : Fin 1) j)) (⟨(i 1).val, (i 1).isLt⟩ : Fin 64)

theorem Gk_ix2 (agg x : S50000x64.Idx → EReal) (wlt wrt : S64x64.Idx → EReal) (b2 lw2 lb2 : S1x64.Idx → EReal) (r : Fin 50000) (q : Fin 64) :
    Gk agg x wlt wrt b2 lw2 lb2 (ix2 r q)
      = out (lin (fun k => agg (ix2 r k)) (fun k => x (ix2 r k)) (fun k j => wlt (ix2 k j)) (fun k j => wrt (ix2 k j)) (fun j => b2 (ix2 (0 : Fin 1) j)))
          (fun j => lw2 (ix2 (0 : Fin 1) j)) (fun j => lb2 (ix2 (0 : Fin 1) j)) q := rfl

/-- That function of the arrays as the region finds them on core c. -/
abbrev Garr (c : Dev nD) : S50000x64.Idx → EReal :=
  Gk (V m c main_v22) (V m c main_arg0) (V m c main_v23) (V m c main_v24) (V m c main_v25) (V m c main_v26) (V m c main_v27)

/-- What point t writes back is block t of that function. -/
theorem flushed_eq (c : Dev nD) (t : Fin cfg0.N) :
    (dats m 0 c).flushed 7 t = ((cfg0.win 7).blk t).view.read (Elt Ideal) (Garr m c) := by
  rw [Value.flushed7]
  funext y
  obtain ⟨p, q, rfl⟩ : ∃ (p : Fin 5000) (q : Fin 64), y = ix2 p q := ⟨y 0, y 1, eq_ix2 y⟩
  rw [read7 t (Garr m c) p q]
  show out0_7 (iblk m c 0 t) (iblk m c 1 t) (iblk m c 2 t) (iblk m c 3 t) (iblk m c 4 t) (iblk m c 5 t) (iblk m c 6 t) (ix2 p q)
    = Gk (V m c main_v22) (V m c main_arg0) (V m c main_v23) (V m c main_v24) (V m c main_v25) (V m c main_v26) (V m c main_v27) (ix2 (rowOf t p) q)
  rw [Gk_ix2]
  unfold out0_7
  simp only [View.ld_unit_zero (S := S5000x64) hz, View.ld_unit_zero (S := S64x64) hz, View.ld_unit_zero (S := S1x64) hz]
  rw [Value.canon7_eq, block_apply]
  simp only [blk0, blk1, blk2, blk3, blk4, blk5, blk6]

/-- An index of the array is in point t's block iff each coordinate is in the block's range on its axis. -/
theorem mem_blk (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v28).slice (win0_7.rect t)).set ↔ _
  rw [View.set_slice_whole, Rect.mem_set_unit]
  exact Iff.rfl

/-- Every index of the array is in some point's block: row r is in the block of point r / 5000. -/
theorem cover (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- The output array after the run is that function. -/
theorem final (c : Dev nD) : (dats m 0 c).arrAt 7 cfg0.N = Garr m c :=
  (dats m 0 c).arrAt_eq_of_cover 7 (Garr m c) (fun t _ => flushed_eq m c t) cover

/-- The kernel's run with its result named: the output array is that function, the arguments are unchanged. -/
theorem run : θ_run defs (onTc (τ := τ) (main (F := Ideal))) ⟨m, fun _ => 0, ρ⟩ fun r => ∀ c : Dev nD,
      r.2.mem ((c : Thread nD τ).loc main_v28) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Arr

end
-- ==== Proof.KernelHost.lean ====
/-
  The arrays the kernel's region finds, as functions of the arguments.

  Before the region the kernel's program builds the aggregated array from the node features and the edge list by
  the same host operations, in the same order, as the reference does (a gather of source rows, a scatter-add into
  destination rows, a scatter-add of ones for the counts, a maximum with one, a division): the two composed terms
  are one term, so the array the region finds is the reference's aggregated array of the same arguments. It is
  never opened. The two weights reach the region transposed, and the bias, the weight row and the shift as 1-by-64
  rows; read at coordinates these are the arguments' entries. With them the kernel's whole-array function is the
  layer of the aggregated array, the node features and the parameters as given.
-/
import proofs.«168790_j67233418051656_1_alg».proof.Proof.Gen.KernelIdeal.Frame
import proofs.«168790_j67233418051656_1_alg».proof.Proof.Gen.ReferenceIdeal.Read
import proofs.«168790_j67233418051656_1_alg».proof.Proof.KernelArray
import proofs.«168790_j67233418051656_1_alg».proof.Proof.RowSpec
import Idealize.ShloMosaic.Lib.StableHlo.Run
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx Cert.SageRow

variable (m : (ℓ : Loc nD τ sig) → Buf (Elt Ideal) ℓ)

set_option maxHeartbeats 8000000 in
/-- The aggregated array the region finds is the reference's aggregated array of the same node features and edge
    list: both programs compose the same host operations. -/
theorem agg_eq (c : Dev nD) : (V m c main_v22 : S50000x64.Idx → EReal)
    = Cert.ReferenceIdeal.Read.val_main_v22 (F := Ideal) (m ((c : Thread nD τ).loc main_arg0)) (m ((c : Thread nD τ).loc main_arg6)) := by
  dsimp only [Gen.V, Gen.hostOps0]; after_results_simp
  simp only [Cert.ReferenceIdeal.Read.val_main_v22, Cert.ReferenceIdeal.Read.val_main_v13, Cert.ReferenceIdeal.Read.val_main_v21, Cert.ReferenceIdeal.Read.val_main_v20, Cert.ReferenceIdeal.Read.val_main_v19, Cert.ReferenceIdeal.Read.val_main_v18, Cert.ReferenceIdeal.Read.val_main_cst_3, Cert.ReferenceIdeal.Read.val_main_v17, Cert.ReferenceIdeal.Read.val_main_v16, Cert.ReferenceIdeal.Read.val_main_v15, Cert.ReferenceIdeal.Read.val_main_cst_2, Cert.ReferenceIdeal.Read.val_main_v14, Cert.ReferenceIdeal.Read.val_main_cst_1, Cert.ReferenceIdeal.Read.val_main_v12, Cert.ReferenceIdeal.Read.val_main_v11, Cert.ReferenceIdeal.Read.val_main_cst, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_c_0, Cert.ReferenceIdeal.Read.val_main_v5, Cert.ReferenceIdeal.Read.val_main_v4, Cert.ReferenceIdeal.Read.val_main_c, Cert.ReferenceIdeal.Read.val_main_v3, Cert.ReferenceIdeal.Read.val_main_v2, Cert.ReferenceIdeal.Read.val_main_v1, Cert.ReferenceIdeal.Read.val_main_v0]
  rfl

/-- The first weight reaches the region transposed. -/
theorem wl_eq (c : Dev nD) : (V m c main_v23 : S64x64.Idx → EReal)
    = transpose S64x64 [1, 0] (m ((c : Thread nD τ).loc main_arg1)) transposes_S64x64_S64x64_1_0 := by
  dsimp only [Gen.V, Gen.hostOps0]; after_results <;> rfl

/-- The second weight reaches the region transposed. -/
theorem wr_eq (c : Dev nD) : (V m c main_v24 : S64x64.Idx → EReal)
    = transpose S64x64 [1, 0] (m ((c : Thread nD τ).loc main_arg2)) transposes_S64x64_S64x64_1_0 := by
  dsimp only [Gen.V, Gen.hostOps0]; after_results <;> rfl

/-- The bias reaches the region as a 1-by-64 row. -/
theorem b_eq (c : Dev nD) : (V m c main_v25 : S1x64.Idx → EReal)
    = shapeCast S1x64 (m ((c : Thread nD τ).loc main_arg3)) shapeCasts_S64_S1x64 := by
  dsimp only [Gen.V, Gen.hostOps0]; after_results <;> rfl

/-- The per-column weight reaches the region as a 1-by-64 row. -/
theorem lw_eq (c : Dev nD) : (V m c main_v26 : S1x64.Idx → EReal)
    = shapeCast S1x64 (m ((c : Thread nD τ).loc main_arg4)) shapeCasts_S64_S1x64 := by
  dsimp only [Gen.V, Gen.hostOps0]; after_results <;> rfl

/-- The per-column shift reaches the region as a 1-by-64 row. -/
theorem lb_eq (c : Dev nD) : (V m c main_v27 : S1x64.Idx → EReal)
    = shapeCast S1x64 (m ((c : Thread nD τ).loc main_arg5)) shapeCasts_S64_S1x64 := by
  dsimp only [Gen.V, Gen.hostOps0]; after_results <;> rfl

/-! ## The same, at coordinates -/

theorem wl_apply (c : Dev nD) (k j : Fin 64) : V m c main_v23 (ix2 k j) = (m ((c : Thread nD τ).loc main_arg1)) (ix2 j k) := by
  rw [wl_eq]; exact transpose_ix2_apply _ _ k j

theorem wr_apply (c : Dev nD) (k j : Fin 64) : V m c main_v24 (ix2 k j) = (m ((c : Thread nD τ).loc main_arg2)) (ix2 j k) := by
  rw [wr_eq]; exact transpose_ix2_apply _ _ k j

theorem b_apply (c : Dev nD) (u : Fin 1) (j : Fin 64) : V m c main_v25 (ix2 u j) = (m ((c : Thread nD τ).loc main_arg3)) (ix1 j) := by
  rw [b_eq]; exact shapeCast_a_1a_apply _ _ u j

theorem lw_apply (c : Dev nD) (u : Fin 1) (j : Fin 64) : V m c main_v26 (ix2 u j) = (m ((c : Thread nD τ).loc main_arg4)) (ix1 j) := by
  rw [lw_eq]; exact shapeCast_a_1a_apply _ _ u j

theorem lb_apply (c : Dev nD) (u : Fin 1) (j : Fin 64) : V m c main_v27 (ix2 u j) = (m ((c : Thread nD τ).loc main_arg5)) (ix1 j) := by
  rw [lb_eq]; exact shapeCast_a_1a_apply _ _ u j

/-- The kernel's output array is the layer of the reference's aggregated array and of the arguments as given. -/
theorem Garr_eq (c : Dev nD) :
    Cert.KernelIdeal.Arr.Garr m c
      = layerArr (Cert.ReferenceIdeal.Read.val_main_v22 (F := Ideal) (m ((c : Thread nD τ).loc main_arg0)) (m ((c : Thread nD τ).loc main_arg6)))
          (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨r, q, rfl⟩ : ∃ (r : Fin 50000) (q : Fin 64), i = ix2 r q := ⟨i 0, i 1, eq_ix2 i⟩
  rw [layerArr_ix2]
  show Cert.KernelIdeal.Arr.Gk (V m c main_v22) (V m c main_arg0) (V m c main_v23) (V m c main_v24) (V m c main_v25) (V m c main_v26)
    (V m c main_v27) (ix2 r q) = _
  rw [Cert.KernelIdeal.Arr.Gk_ix2]
  unfold layer
  have hA : (fun k : Fin 64 => V m c main_v22 (ix2 r k))
      = fun k => Cert.ReferenceIdeal.Read.val_main_v22 (F := Ideal) (m ((c : Thread nD τ).loc main_arg0)) (m ((c : Thread nD τ).loc main_arg6)) (ix2 r k) := by rw [agg_eq]
  have hX : (fun k : Fin 64 => V m c main_arg0 (ix2 r k)) = fun k => (m ((c : Thread nD τ).loc main_arg0)) (ix2 r k) := by rw [V_main_arg0]
  have hWl : (fun k j : Fin 64 => V m c main_v23 (ix2 k j)) = fun k j => (m ((c : Thread nD τ).loc main_arg1)) (ix2 j k) :=
    funext fun k => funext fun j => wl_apply m c k j
  have hWr : (fun k j : Fin 64 => V m c main_v24 (ix2 k j)) = fun k j => (m ((c : Thread nD τ).loc main_arg2)) (ix2 j k) :=
    funext fun k => funext fun j => wr_apply m c k j
  have hB : (fun j : Fin 64 => V m c main_v25 (ix2 (0 : Fin 1) j)) = fun j => (m ((c : Thread nD τ).loc main_arg3)) (ix1 j) :=
    funext fun j => b_apply m c 0 j
  have hLw : (fun j : Fin 64 => V m c main_v26 (ix2 (0 : Fin 1) j)) = fun j => (m ((c : Thread nD τ).loc main_arg4)) (ix1 j) :=
    funext fun j => lw_apply m c 0 j
  have hLb : (fun j : Fin 64 => V m c main_v27 (ix2 (0 : Fin 1) j)) = fun j => (m ((c : Thread nD τ).loc main_arg5)) (ix1 j) :=
    funext fun j => lb_apply m c 0 j
  rw [hA, hX, hWl, hWr, hB, hLw, hLb]

end Cert.KernelIdeal.Host

end
-- ==== Proof.RefRow.lean ====
/-
  The reference's result at one entry, row by row.

  The reference computes the same layer on the whole 50000-row arrays with host operations: two general products
  against the transposed weights, the bias broadcast down the rows, a sum along the feature axis divided by 64 for
  the mean, the centred array, its square summed and divided by 64 for the variance, the inverse square root of the
  variance plus the small number, the two per-column rows broadcast down the rows, and a maximum with zero.
  Read at row r and column q through the generated stage lemmas, every stage depends only on row r of the
  aggregated array and of the node features; the host sums start from the zero word, which adds nothing.
-/
import proofs.«168790_j67233418051656_1_alg».proof.Proof.Gen.ReferenceIdeal.Read
import proofs.«168790_j67233418051656_1_alg».proof.Proof.RowSpec
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx Cert.SageRow

variable (x0 : (⟨S50000x64, .f32⟩ : BufTy).Contents (Elt Ideal)) (x1 x2 : (⟨S64x64, .f32⟩ : BufTy).Contents (Elt Ideal))
  (x3 x4 x5 : (⟨S64, .f32⟩ : BufTy).Contents (Elt Ideal)) (x6 : (⟨S2x800000, .i32⟩ : BufTy).Contents (Elt Ideal))

/-! ## The composed index maps, in coordinates -/

theorem lhs24 (r : Fin 50000) (q k : Fin 64) : lidx_main_v24 (ix2 r q) k = ix2 r k :=
  funext fun a => Fin.ext (by match a with | ⟨0, _⟩ => rfl | ⟨1, _⟩ => rfl)
theorem rhs24 (r : Fin 50000) (q k : Fin 64) : idx_main_v23 (ridx_main_v24 (ix2 r q) k) = ix2 q k :=
  funext fun a => Fin.ext (by match a with | ⟨0, _⟩ => rfl | ⟨1, _⟩ => rfl)
theorem lhs26 (r : Fin 50000) (q k : Fin 64) : lidx_main_v26 (ix2 r q) k = ix2 r k :=
  funext fun a => Fin.ext (by match a with | ⟨0, _⟩ => rfl | ⟨1, _⟩ => rfl)
theorem rhs26 (r : Fin 50000) (q k : Fin 64) : idx_main_v25 (ridx_main_v26 (ix2 r q) k) = ix2 q k :=
  funext fun a => Fin.ext (by match a with | ⟨0, _⟩ => rfl | ⟨1, _⟩ => rfl)
theorem bias29 (r : Fin 50000) (q : Fin 64) : idx_main_v28 (idx_main_v29 (ix2 r q)) = ix1 q :=
  funext fun a => Fin.ext (by match a with | ⟨0, _⟩ => rfl)
theorem sum31 (r : Fin 50000) (u : Fin 1) (k : Fin 64) : idx_main_v31 (idx_main_v32 (ix2 r u)) k = ix2 r k :=
  funext fun a => Fin.ext (by match a with | ⟨0, _⟩ => rfl | ⟨1, _⟩ => rfl)
theorem col35 (r : Fin 50000) (q : Fin 64) : idx_main_v35 (ix2 r q) = ix2 r (0 : Fin 1) :=
  funext fun a => Fin.ext (by match a with | ⟨0, _⟩ => rfl | ⟨1, _⟩ => rfl)
theorem sum38 (r : Fin 50000) (u : Fin 1) (k : Fin 64) : idx_main_v38 (idx_main_v39 (ix2 r u)) k = ix2 r k :=
  funext fun a => Fin.ext (by match a with | ⟨0, _⟩ => rfl | ⟨1, _⟩ => rfl)
theorem col42 (r : Fin 50000) (q : Fin 64) : idx_main_v42 (ix2 r q) = ix2 r (0 : Fin 1) :=
  funext fun a => Fin.ext (by match a with | ⟨0, _⟩ => rfl | ⟨1, _⟩ => rfl)
theorem col47 (r : Fin 50000) (q : Fin 64) : idx_main_v47 (ix2 r q) = ix2 r (0 : Fin 1) :=
  funext fun a => Fin.ext (by match a with | ⟨0, _⟩ => rfl | ⟨1, _⟩ => rfl)
theorem row50 (r : Fin 50000) (q : Fin 64) : idx_main_v49 (idx_main_v50 (ix2 r q)) = ix1 q :=
  funext fun a => Fin.ext (by match a with | ⟨0, _⟩ => rfl)
theorem row53 (r : Fin 50000) (q : Fin 64) : idx_main_v52 (idx_main_v53 (ix2 r q)) = ix1 q :=
  funext fun a => Fin.ext (by match a with | ⟨0, _⟩ => rfl)

/-! ## The stages at (r, q) -/

/-- Row r of the linear part, as a function of the column. -/
abbrev hrow (r : Fin 50000) : Fin 64 → EReal := fun j => val_main_v30 (F := Ideal) x0 x1 x2 x3 x6 (ix2 r j)

/-- The linear part at (r, q): row r of the aggregated array and of the node features against row q of each weight
    (the reference transposes the weights), plus the bias at q. -/
theorem lin_apply (r : Fin 50000) (q : Fin 64) :
    val_main_v30 (F := Ideal) x0 x1 x2 x3 x6 (ix2 r q)
      = lin (fun k => val_main_v22 (F := Ideal) x0 x6 (ix2 r k)) (fun k => x0 (ix2 r k)) (fun k j => x1 (ix2 j k)) (fun k j => x2 (ix2 j k))
          (fun j => x3 (ix1 j)) q := by
  unfold lin
  rw [val_main_v30_apply, val_main_v27_apply, val_main_v24_apply, val_main_v26_apply, val_main_v29_apply, val_main_v28_apply]
  simp only [val_main_v23_apply, val_main_v25_apply, lhs24, rhs24, lhs26, rhs26, bias29, Ideal.addf_def]

/-- The mean column at row r is the mean of row r of the linear part. -/
theorem mean_apply (r : Fin 50000) (u : Fin 1) :
    val_main_v34 (F := Ideal) x0 x1 x2 x3 x6 (ix2 r u) = mean (hrow x0 x1 x2 x3 x6 r) := by
  unfold mean
  rw [val_main_v34_apply, val_main_v32_apply, val_main_v31_apply, val_main_v33_apply]
  simp only [sum31, val_main_cst_4_apply, val_main_cst_5_apply, Ideal.hostDivf_def, Ideal.ofBits_def, Ideal.ofBits_zero_f32, zero_add]

/-- The centred array at (r, q). -/
theorem cen_apply (r : Fin 50000) (q : Fin 64) :
    val_main_v36 (F := Ideal) x0 x1 x2 x3 x6 (ix2 r q) = cen (hrow x0 x1 x2 x3 x6 r) q := by
  unfold cen
  rw [val_main_v36_apply, val_main_v35_apply, col35, mean_apply]
  simp only [Ideal.subf_def]

/-- The centred array is computed a second time for the scaling; it is the same. -/
theorem cen_apply' (r : Fin 50000) (q : Fin 64) :
    val_main_v43 (F := Ideal) x0 x1 x2 x3 x6 (ix2 r q) = cen (hrow x0 x1 x2 x3 x6 r) q := by
  unfold cen
  rw [val_main_v43_apply, val_main_v42_apply, col42, mean_apply]
  simp only [Ideal.subf_def]

/-- The variance column at row r is the variance of row r of the linear part. -/
theorem var_apply (r : Fin 50000) (u : Fin 1) :
    val_main_v41 (F := Ideal) x0 x1 x2 x3 x6 (ix2 r u) = var (hrow x0 x1 x2 x3 x6 r) := by
  unfold var
  rw [val_main_v41_apply, val_main_v39_apply, val_main_v38_apply, val_main_v40_apply]
  have e : ∀ k : Fin 64, val_main_v37 (F := Ideal) x0 x1 x2 x3 x6 (idx_main_v38 (idx_main_v39 (ix2 r u)) k)
      = cen (hrow x0 x1 x2 x3 x6 r) k * cen (hrow x0 x1 x2 x3 x6 r) k := fun k => by
    rw [sum38, val_main_v37_apply, cen_apply, Ideal.mulf_def]
  rw [Finset.sum_congr rfl fun k _ => e k]
  simp only [val_main_cst_6_apply, val_main_cst_7_apply, Ideal.hostDivf_def, Ideal.ofBits_def, Ideal.ofBits_zero_f32, zero_add]

/-- The scaled array at (r, q). -/
theorem scaled_apply (r : Fin 50000) (q : Fin 64) :
    val_main_v51 (F := Ideal) x0 x1 x2 x3 x4 x6 (ix2 r q) = scaled (hrow x0 x1 x2 x3 x6 r) (fun j => x4 (ix1 j)) q := by
  unfold scaled
  rw [val_main_v51_apply, val_main_v48_apply, val_main_v47_apply, val_main_v46_apply, val_main_v45_apply, val_main_v44_apply,
    val_main_v50_apply, val_main_v49_apply, col47, row50, cen_apply', var_apply]
  simp only [val_main_cst_8_apply, Ideal.mulf_def, Ideal.addf_def, Ideal.hostUnary_rsqrt_def, Ideal.ofBits_def]

/-- The result at (r, q): the shift added, cut off below at zero. -/
theorem out_apply (r : Fin 50000) (q : Fin 64) :
    val_main_v55 (F := Ideal) x0 x1 x2 x3 x4 x5 x6 (ix2 r q)
      = out (hrow x0 x1 x2 x3 x6 r) (fun j => x4 (ix1 j)) (fun j => x5 (ix1 j)) q := by
  unfold out
  rw [val_main_v55_apply, val_main_v54_apply, val_main_v53_apply, val_main_v52_apply, val_main_call0_v0_apply, val_main_call0_cst_apply,
    row53, scaled_apply]
  simp only [Ideal.maximumf_def, Ideal.addf_def, Ideal.ofBits_def]

/-- The result at (r, q) as the row specification of row r of the aggregated array and of the node features. -/
theorem result_apply (r : Fin 50000) (q : Fin 64) :
    val_main_v55 (F := Ideal) x0 x1 x2 x3 x4 x5 x6 (ix2 r q)
      = out (lin (fun k => val_main_v22 (F := Ideal) x0 x6 (ix2 r k)) (fun k => x0 (ix2 r k)) (fun k j => x1 (ix2 j k)) (fun k j => x2 (ix2 j k))
            (fun j => x3 (ix1 j)))
          (fun j => x4 (ix1 j)) (fun j => x5 (ix1 j)) q := by
  rw [out_apply]
  have e : hrow x0 x1 x2 x3 x6 r = lin (fun k => val_main_v22 (F := Ideal) x0 x6 (ix2 r k)) (fun k => x0 (ix2 r k)) (fun k j => x1 (ix2 j k))
      (fun k j => x2 (ix2 j k)) (fun j => x3 (ix1 j)) := funext fun j => lin_apply x0 x1 x2 x3 x6 r j
  rw [e]

/-- The reference's result array is the layer of the aggregated array it computes and of its arguments. -/
theorem result_eq :
    val_main_v55 (F := Ideal) x0 x1 x2 x3 x4 x5 x6 = layerArr (val_main_v22 (F := Ideal) x0 x6) x0 x1 x2 x3 x4 x5 := by
  funext i
  obtain ⟨r, q, rfl⟩ : ∃ (r : Fin 50000) (q : Fin 64), i = ix2 r q := ⟨i 0, i 1, eq_ix2 i⟩
  rw [layerArr_ix2]
  unfold layer
  exact result_apply x0 x1 x2 x3 x4 x5 x6 r q

end Cert.ReferenceIdeal.Row

end
-- ==== Proof.lean ====
/-
  A graph layer: each node's neighbours' features are averaged (a gather of source rows, a scatter-add into
  destination rows, divided by the larger of the in-degree and one), the average and the node's own features go
  through two 64-by-64 linear maps and a bias, each row is normalised (centred on its mean, divided by the square
  root of its variance plus a small number, scaled and shifted per column) and cut off below at zero.

  The kernel's program and the reference build the averaged array by the same host operations; it is carried as one
  array and never opened. The kernel then does the dense part on ten blocks of 5000 rows, narrowing the products'
  operands to a shorter float format; the reference does it on the whole 50000-row arrays. On the extended reals a
  change of format is the identity and a product into a zero accumulator is the plain sum over the contraction
  index, so at every entry both are one function of row r of the averaged array and of the node features: the same
  sums, quotients, inverse square root and maximum, applied in the same order. No algebraic law is needed beyond
  0 + s = s for the host sums' starting value, so the finiteness of the inputs is never used.

  The frames are the generated ones; the reference's is its generated run with the result dropped. The idealization
  pass rewrote nothing, so there is nothing to preserve.
-/
import proofs.«168790_j67233418051656_1_alg».proof.Defs
import proofs.«168790_j67233418051656_1_alg».proof.Proof.Gen.Kernel
import proofs.«168790_j67233418051656_1_alg».proof.Proof.Gen.Kernel.Skeleton
import proofs.«168790_j67233418051656_1_alg».proof.Proof.Gen.Kernel.Launch
import proofs.«168790_j67233418051656_1_alg».proof.Proof.Gen.Kernel.Points
import proofs.«168790_j67233418051656_1_alg».proof.Proof.Gen.Kernel.Frame
import proofs.«168790_j67233418051656_1_alg».proof.Proof.Gen.KernelIdeal
import proofs.«168790_j67233418051656_1_alg».proof.Proof.Gen.KernelIdeal.Skeleton
import proofs.«168790_j67233418051656_1_alg».proof.Proof.Gen.KernelIdeal.Launch
import proofs.«168790_j67233418051656_1_alg».proof.Proof.Gen.KernelIdeal.Points
import proofs.«168790_j67233418051656_1_alg».proof.Proof.Gen.KernelIdeal.Frame
import proofs.«168790_j67233418051656_1_alg».proof.Proof.Gen.ReferenceIdeal
import proofs.«168790_j67233418051656_1_alg».proof.Proof.Gen.Pre_finite_inputs
import proofs.«168790_j67233418051656_1_alg».proof.Proof.Gen.KernelIdeal.Value
import proofs.«168790_j67233418051656_1_alg».proof.Proof.Gen.ReferenceIdeal.Run
import proofs.«168790_j67233418051656_1_alg».proof.Proof.Gen.ReferenceIdeal.Read
import Idealize.ShloMosaic.Adequacy
import Idealize.ShloMosaic.Init
import proofs.«168790_j67233418051656_1_alg».proof.Proof.KernelArray
import proofs.«168790_j67233418051656_1_alg».proof.Proof.KernelHost
import proofs.«168790_j67233418051656_1_alg».proof.Proof.RefRow

noncomputable section

namespace Cert.Proof

open Idealize.ShloMosaic Idealize.SL.Sem Cert.SageRow

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the averaged array and of the arguments: the kernel block by block, the
    reference on whole arrays. -/
theorem algebraic : Cert.algebraic_KernelIdeal_ReferenceIdeal := by
  intro m ρ m' ρ' _ hagree
  refine ⟨fun c => layerArr (Cert.ReferenceIdeal.Read.val_main_v22 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Host.Garr_eq m c), (h c).2⟩) (Cert.KernelIdeal.Arr.run m ρ)
  · refine (θ_run Cert.ReferenceIdeal.defs _ _).mono (fun r h c => ⟨?_, (h c).2⟩)
      (Cert.ReferenceIdeal.Value.run (F := Ideal) m' ρ')
    obtain ⟨a0, a1, a2, a3, a4, a5, a6⟩ := hagree c
    rw [(h c).1, Cert.ReferenceIdeal.Read.val_main_v55_eq, Cert.ReferenceIdeal.Row.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
